-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x3x128 : Shape := ⟨3, ![16, 3, 128]⟩
abbrev S16x3x16384 : Shape := ⟨3, ![16, 3, 16384]⟩
abbrev S_ : Shape := ⟨0, ![]⟩

class Facts : Prop where
  bcast_S_S16x3x128 : S_.BroadcastsInDim S16x3x128 (![] : Fin 0 → Fin S16x3x128.rank)
  reducesTo_S16x3x128_S_d0_1_2 : S16x3x128.ReducesTo [0, 1, 2] S_
  h_S_ : 0 < S_.numel
  bcast_S_S16x3x16384 : S_.BroadcastsInDim S16x3x16384 (![] : Fin 0 → Fin S16x3x16384.rank)
  reducesTo_S16x3x16384_S_d0_1_2 : S16x3x16384.ReducesTo [0, 1, 2] S_

variable [Facts]

def fn {F : FTy → Type} [FloatOps F] (main_arg0 : FVec F S16x3x128 .f32) (main_arg1 : FVec F S16x3x16384 .f32) : IVec S_ 1 :=
  let main_v0 : FVec F S16x3x128 .f32 := Host.absf main_arg0
  let main_cst : FVec F S_ .f32 := constant S_ .f32 0x7F800000#32
  let main_v1 : FVec F S16x3x128 .f32 := broadcastInDim S16x3x128 ![] bcast_S_S16x3x128 main_cst
  let main_v2 : IVec S16x3x128 1 := cmpf .olt main_v0 main_v1
  let main_c : IVec S_ 1 := constantI S_ 1 1#1
  let main_v3 : IVec S_ 1 := (fun x v => Host.reduce IntOp.andi x v reducesTo_S16x3x128_S_d0_1_2 h_S_) main_v2 main_c
  let main_v4 : FVec F S16x3x16384 .f32 := Host.absf main_arg1
  let main_cst_0 : FVec F S_ .f32 := constant S_ .f32 0x7F800000#32
  let main_v5 : FVec F S16x3x16384 .f32 := broadcastInDim S16x3x16384 ![] bcast_S_S16x3x16384 main_cst_0
  let main_v6 : IVec S16x3x16384 1 := cmpf .olt main_v4 main_v5
  let main_c_1 : IVec S_ 1 := constantI S_ 1 1#1
  let main_v7 : IVec S_ 1 := (fun x v => Host.reduce IntOp.andi x v reducesTo_S16x3x16384_S_d0_1_2 h_S_) main_v6 main_c_1
  let main_v8 : IVec S_ 1 := andi main_v3 main_v7
  main_v8
-- ==== Kernel.lean ====
abbrev S16x3x128 : Shape := ⟨3, ![16, 3, 128]⟩
abbrev S16x3x16384 : Shape := ⟨3, ![16, 3, 16384]⟩
abbrev S16x128x1 : Shape := ⟨3, ![16, 128, 1]⟩
abbrev S1x3x128 : Shape := ⟨3, ![1, 3, 128]⟩
abbrev S1x3x4096 : Shape := ⟨3, ![1, 3, 4096]⟩
abbrev S1x128x1 : Shape := ⟨3, ![1, 128, 1]⟩
abbrev S128x1 : Shape := ⟨2, ![128, 1]⟩
abbrev S3x128 : Shape := ⟨2, ![3, 128]⟩
abbrev S3x4096 : Shape := ⟨2, ![3, 4096]⟩
abbrev S128x4096 : Shape := ⟨2, ![128, 4096]⟩
abbrev S1x128 : Shape := ⟨2, ![1, 128]⟩
abbrev S128 : Shape := ⟨1, ![128]⟩
abbrev S1x4096 : Shape := ⟨2, ![1, 4096]⟩
abbrev S4096 : Shape := ⟨1, ![4096]⟩
abbrev S16x128 : Shape := ⟨2, ![16, 128]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S16x3x128, .f32⟩
  | .hbm, ⟨1, _⟩ => ⟨S16x3x16384, .f32⟩
  | .hbm, ⟨2, _⟩ => ⟨S16x128x1, .f32⟩
  | .hbm, ⟨3, _⟩ => ⟨S16x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x3x128, .f32⟩
  | .local _ .vmem, ⟨1, _⟩ => ⟨S1x3x128, .f32⟩
  | .local _ .vmem, ⟨2, _⟩ => ⟨S1x3x4096, .f32⟩
  | .local _ .vmem, ⟨3, _⟩ => ⟨S1x3x4096, .f32⟩
  | .local _ .vmem, ⟨4, _⟩ => ⟨S1x128x1, .f32⟩
  | .local _ .vmem, ⟨5, _⟩ => ⟨S1x128x1, .f32⟩
  | _, _ => ⟨S16x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  slices_S3x128_o0_0_S1x128 : S3x128.Slices ![0, 0] S1x128
  shapeCasts_S1x128_S128 : S1x128.ShapeCasts S128
  shapeCasts_S128_S128x1 : S128.ShapeCasts S128x1
  slices_S3x4096_o0_0_S1x4096 : S3x4096.Slices ![0, 0] S1x4096
  shapeCasts_S1x4096_S4096 : S1x4096.ShapeCasts S4096
  shapeCasts_S4096_S1x4096 : S4096.ShapeCasts S1x4096
  broadcasts_S128x1_S128x4096 : S128x1.Broadcasts S128x4096
  broadcasts_S1x4096_S128x4096 : S1x4096.Broadcasts S128x4096
  slices_S3x128_o1_0_S1x128 : S3x128.Slices ![1, 0] S1x128
  slices_S3x4096_o1_0_S1x4096 : S3x4096.Slices ![1, 0] S1x4096
  slices_S3x128_o2_0_S1x128 : S3x128.Slices ![2, 0] S1x128
  slices_S3x4096_o2_0_S1x4096 : S3x4096.Slices ![2, 0] S1x4096
  reduces_S128x4096_S128 : S128x4096.Reduces [1] S128
  shapeCasts_S16x128x1_S16x128 : S16x128x1.ShapeCasts S16x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x128.size a ≤ S16x3x128.size a
  hwx0_0 : ∀ i : grid0.Coords, EltTy.bits .f32 = 32 ∨ (Rect.block (s := S16x3x128) S1x3x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x4096.size a ≤ S16x3x16384.size a
  hwx0_1 : ∀ i : grid0.Coords, EltTy.bits .f32 = 32 ∨ (Rect.block (s := S16x3x16384) S1x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1.size a ≤ S16x128x1.size a
  hwx0_2 : ∀ i : grid0.Coords, EltTy.bits .f32 = 32 ∨ (Rect.block (s := S16x128x1) S1x128x1.size (cc0_transform_2 i) (hinb0_2 i)).WholeWords (EltTy.packing .f32)

variable [Facts₀]

abbrev win0_0 : Pipeline.Window sig grid0 :=
  Pipeline.Window.ofSpec (Memref.whole main_arg0) S1x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x3x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x3x128 : Shape := ⟨3, ![16, 3, 128]⟩
abbrev S16x3x16384 : Shape := ⟨3, ![16, 3, 16384]⟩
abbrev S16x3x128x1 : Shape := ⟨4, ![16, 3, 128, 1]⟩
abbrev S16x3x1x16384 : Shape := ⟨4, ![16, 3, 1, 16384]⟩
abbrev S16x3x128x16384 : Shape := ⟨4, ![16, 3, 128, 16384]⟩
abbrev S_ : Shape := ⟨0, ![]⟩
abbrev S16x128x16384 : Shape := ⟨3, ![16, 128, 16384]⟩
abbrev S16x128 : Shape := ⟨2, ![16, 128]⟩

abbrev nBuf : Space → Nat
  | .hbm => 17
  | .vmem => 0
  | .smem => 0
  | _ => 0

abbrev bufTy : (tb : Table) → Fin (tcTables nBuf tb) → BufTy
  | .hbm, ⟨0, _⟩ => ⟨S16x3x128, .f32⟩
  | .hbm, ⟨1, _⟩ => ⟨S16x3x16384, .f32⟩
  | .hbm, ⟨2, _⟩ => ⟨S16x3x128x1, .f32⟩
  | .hbm, ⟨3, _⟩ => ⟨S16x3x1x16384, .f32⟩
  | .hbm, ⟨4, _⟩ => ⟨S16x3x128x16384, .f32⟩
  | .hbm, ⟨5, _⟩ => ⟨S16x3x128x16384, .f32⟩
  | .hbm, ⟨6, _⟩ => ⟨S16x3x128x16384, .f32⟩
  | .hbm, ⟨7, _⟩ => ⟨S16x3x128x16384, .f32⟩
  | .hbm, ⟨8, _⟩ => ⟨S_, .f32⟩
  | .hbm, ⟨9, _⟩ => ⟨S16x128x16384, .f32⟩
  | .hbm, ⟨10, _⟩ => ⟨S16x128x16384, .f32⟩
  | .hbm, ⟨11, _⟩ => ⟨S_, .f32⟩
  | .hbm, ⟨12, _⟩ => ⟨S16x128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | _, _ => ⟨S16x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S16x3x128_S16x3x128x1_0_1_2 : S16x3x128.BroadcastsInDim S16x3x128x1 (![0, 1, 2] : Fin 3 → Fin S16x3x128x1.rank)
  bcast_S16x3x16384_S16x3x1x16384_0_1_3 : S16x3x16384.BroadcastsInDim S16x3x1x16384 (![0, 1, 3] : Fin 3 → Fin S16x3x1x16384.rank)
  bcast_S16x3x128x1_S16x3x128x16384_0_1_2_3 : S16x3x128x1.BroadcastsInDim S16x3x128x16384 (![0, 1, 2, 3] : Fin 4 → Fin S16x3x128x16384.rank)
  bcast_S16x3x1x16384_S16x3x128x16384_0_1_2_3 : S16x3x1x16384.BroadcastsInDim S16x3x128x16384 (![0, 1, 2, 3] : Fin 4 → Fin S16x3x128x16384.rank)
  reducesTo_S16x3x128x16384_S16x128x16384_d1 : S16x3x128x16384.ReducesTo [1] S16x128x16384
  h_S_ : 0 < S_.numel
  reducesTo_S16x128x16384_S16x128_d2 : S16x128x16384.ReducesTo [2] S16x128
  reducesTo_S16x128_S_d0_1 : S16x128.ReducesTo [0, 1] S_

variable [Facts₀]

class Facts : Prop extends Facts₀ where

variable [Facts]
-- ==== Proof.KernelPieces.lean ====
/-
  What each control case of the kernel's body leaves in the output block, as a value.

  The output block [1, 128, 1] stays in its staging buffer over the four tiles of one batch. With `acc` what the
  point before left there, `kp` the batch's keypoint block and `pc` the tile of the cloud:
    first tile  — the block is set to `+∞`, then replaced by `min(+∞, tileMin kp pc)`;
    middle tile — replaced by `min(acc, tileMin kp pc)`;
    last tile   — replaced by `min(acc, tileMin kp pc)` and then by its square root.
  Here `tileMin` is the payload `k0_pay4`, the minimum `k0_pay1`, the square root `k0_pay2` and the `+∞` block `k0_pay3`.
  Each case's stores cover the whole block, the last store on top, and a load after a covering store reads that store.
  Stated at any float instance.
-/
import proofs.«109812_j51462298141282_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

theorem hz : (![0, 0, 0] : Fin 3 → Nat) = fun _ => 0 := funext fun a => by fin_cases a <;> rfl

/-- A middle tile: the running minimum with this tile's minimum. -/
theorem out_B (c : Dev nD) (i : grid0.Coords) (a2 : Memref sig .tc .vmem S1x3x128 .f32) (h2 : a2.IsWhole)
    (a3 : Memref sig .tc .vmem S1x3x4096 .f32) (h3 : a3.IsWhole) (a4 : Memref sig .tc .vmem S1x128x1 .f32) (h4 : a4.IsWhole)
    (hc0 : ¬cond0_0 i) (hc1 : ¬cond0_1 i) (x0 : Vec F S1x3x128 .f32) (x1 : Vec F S1x3x4096 .f32) (xo : Vec F S1x128x1 .f32) :
    out0_B_2 c i a2 h2 a3 h3 a4 h4 hc0 hc1 x0 x1 xo = k0_pay1 (k0_pay4 x0 x1) xo := by
  unfold out0_B_2
  rw [View.read_writes_eq_canon _ _ _ (cover0_B_2 c i a2 h2 a3 h3 a4 h4 hc0 hc1 x0 x1 xo)]
  unfold kernelRun0_B
  dsimp only
  sl_unfold_words
  rw [View.canon_unit_zero hz]
  simp only [View.readAt_eq_ld, h2.read_unread, h3.read_unread, h4.read_unread, View.ld_unit_zero (S := S1x3x128) hz,
    View.ld_unit_zero (S := S1x3x4096) hz, View.ld_unit_zero (S := S1x128x1) hz]

/-- The first tile: the block is reset to `+∞` and the reset block is what the minimum reads back. -/
theorem out_A (c : Dev nD) (i : grid0.Coords) (a2 : Memref sig .tc .vmem S1x3x128 .f32) (h2 : a2.IsWhole)
    (a3 : Memref sig .tc .vmem S1x3x4096 .f32) (h3 : a3.IsWhole) (a4 : Memref sig .tc .vmem S1x128x1 .f32) (h4 : a4.IsWhole)
    (hc0 : cond0_0 i) (hc1 : ¬cond0_1 i) (x0 : Vec F S1x3x128 .f32) (x1 : Vec F S1x3x4096 .f32) :
    out0_A_2 c i a2 h2 a3 h3 a4 h4 hc0 hc1 x0 x1 = k0_pay1 (k0_pay4 x0 x1) (k0_pay3 (F := F)) := by
  unfold out0_A_2
  rw [View.read_writes_eq_canon _ _ _ (cover0_A_2 c i a2 h2 a3 h3 a4 h4 hc0 hc1 x0 x1)]
  unfold kernelRun0_A
  dsimp only
  sl_unfold_words
  rw [View.canon_cons_unit_zero (S := S1x128x1) hz]
  simp only [View.readAt_eq_ld, h2.read_unread, h3.read_unread, View.ld_unit_zero (S := S1x3x128) hz,
    View.ld_unit_zero (S := S1x3x4096) hz, View.readCov_unit_zero (S := S1x128x1) _ hz]

/-- The last tile: the running minimum is stored, read back, and replaced by its square root. -/
theorem out_C (c : Dev nD) (i : grid0.Coords) (a2 : Memref sig .tc .vmem S1x3x128 .f32) (h2 : a2.IsWhole)
    (a3 : Memref sig .tc .vmem S1x3x4096 .f32) (h3 : a3.IsWhole) (a4 : Memref sig .tc .vmem S1x128x1 .f32) (h4 : a4.IsWhole)
    (hc0 : ¬cond0_0 i) (hc1 : cond0_1 i) (x0 : Vec F S1x3x128 .f32) (x1 : Vec F S1x3x4096 .f32) (xo : Vec F S1x128x1 .f32) :
    out0_C_2 c i a2 h2 a3 h3 a4 h4 hc0 hc1 x0 x1 xo = k0_pay2 (k0_pay1 (k0_pay4 x0 x1) xo) := by
  unfold out0_C_2
  rw [View.read_writes_eq_canon _ _ _ (cover0_C_2 c i a2 h2 a3 h3 a4 h4 hc0 hc1 x0 x1 xo)]
  unfold kernelRun0_C
  dsimp only
  sl_unfold_words
  rw [View.canon_cons_unit_zero (S := S1x128x1) hz]
  simp only [View.readAt_eq_ld, h2.read_unread, h3.read_unread, h4.read_unread, View.ld_unit_zero (S := S1x3x128) hz,
    View.ld_unit_zero (S := S1x3x4096) hz, View.ld_unit_zero (S := S1x128x1) hz, View.readCov_unit_zero (S := S1x128x1) _ hz]

end Cert.KernelIdeal.Pieces

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibBlockMin.lean ====
/-
  A minimum over a finite index set, taken block by block.

  In a complete linear order, the fold of `min` from the top element over every index of a finite type is the infimum
  of the family (`fold_min_top_eq_iInf`). For a family `f` over `Fin N` cut into consecutive blocks of `S` indices,
  `pre S f j` is the infimum over the first `S * j` indices and `tile S f j` the infimum over block `j`; the running
  minimum obeys `pre S f 0 = ⊤`, `pre S f (j + 1) = min (pre S f j) (tile S f j)`, and once the blocks exhaust the
  index set it is the infimum over all of it (`pre_all`). Any sizes.
-/
import Mathlib.Data.Finset.Fold
import Mathlib.Order.CompleteLattice.Basic
import Mathlib.Order.CompleteLattice.Finset

namespace BlockMin

variable {α : Type*} [CompleteLinearOrder α]

/-- The fold of `min` from `⊤` over all indices of a finite type is the infimum of the family. -/
theorem fold_min_top_eq_iInf {ι : Type*} [Fintype ι] (g : ι → α) :
    (Finset.univ : Finset ι).fold min ⊤ g = ⨅ k, g k := by
  apply le_antisymm
  · exact le_iInf fun k => (Finset.fold_min_le _).mpr (Or.inr ⟨k, Finset.mem_univ k, le_rfl⟩)
  · exact (Finset.le_fold_min _).mpr ⟨le_top, fun x _ => iInf_le g x⟩

/-- The infimum of `f` over the indices below `S * j`: the first `j` blocks of `S`. -/
def pre {N : ℕ} (S : ℕ) (f : Fin N → α) (j : ℕ) : α := ⨅ (n : Fin N) (_ : n.val < S * j), f n

/-- The infimum of `f` over block `j`: the indices `S * j + k`, `k < S`. -/
def tile {N : ℕ} (S : ℕ) (f : Fin N → α) (j : ℕ) (hj : S * (j + 1) ≤ N) : α :=
  ⨅ k : Fin S, f ⟨S * j + k.val, by have := k.isLt; rw [Nat.mul_succ] at hj; omega⟩

/-- No block yet: the empty infimum. -/
theorem pre_zero {N : ℕ} (S : ℕ) (f : Fin N → α) : pre S f 0 = ⊤ := by
  unfold pre
  refine le_antisymm le_top (le_iInf₂ fun n hn => ?_)
  rw [Nat.mul_zero] at hn
  exact absurd hn (Nat.not_lt_zero _)

/-- One more block: the minimum of what the earlier blocks gave and this block's infimum. -/
theorem pre_succ {N : ℕ} (S : ℕ) (f : Fin N → α) (j : ℕ) (hj : S * (j + 1) ≤ N) :
    pre S f (j + 1) = min (pre S f j) (tile S f j hj) := by
  have hS : S * (j + 1) = S * j + S := Nat.mul_succ S j
  apply le_antisymm
  · refine le_min (le_iInf₂ fun n hn => iInf₂_le n (by omega)) (le_iInf fun k => ?_)
    have := k.isLt
    exact iInf₂_le (⟨S * j + k.val, by omega⟩ : Fin N) (by show S * j + k.val < S * (j + 1); omega)
  · refine le_iInf₂ fun n hn => ?_
    by_cases h : n.val < S * j
    · exact (min_le_left _ _).trans (iInf₂_le n h)
    · refine (min_le_right _ _).trans ?_
      have hk : n.val - S * j < S := by omega
      refine (iInf_le _ (⟨n.val - S * j, hk⟩ : Fin S)).trans (le_of_eq ?_)
      exact congrArg f (Fin.ext (by show S * j + (n.val - S * j) = n.val; omega))

/-- When the first `j` blocks are the whole index set, their infimum is the infimum over every index. -/
theorem pre_all {N : ℕ} (S : ℕ) (f : Fin N → α) (j : ℕ) (hj : N ≤ S * j) : pre S f j = ⨅ n, f n := by
  unfold pre
  exact iInf_congr fun n => iInf_pos (lt_of_lt_of_le n.isLt hj)

end BlockMin
-- ==== Proof.LibSqrtMin.lean ====
/-
  The square root and the minimum on the extended reals, as the ideal float values read them.

  `Ideal.sqrt` sends `⊥` and the negative reals to `⊥`, a real `r ≥ 0` to `√r` and `⊤` to `⊤`: it is monotone on all
  of the extended reals (`sqrt_mono`), so it commutes with `min` (`sqrt_min`) and, since `√⊤ = ⊤`, with the infimum
  of any finite family (`sqrt_iInf`): the square root of the least squared distance is the least distance. The f32
  pattern `0x7F800000` is `⊤` (`ofBits_inf_f32`). A `vector.multi_reduction <minimumf>` over ONE axis from that pattern, and
  the host's one-operand `stablehlo.reduce` with a `minimum` body over one axis from it, read at a result index, are the
  infimum over that axis's coordinates (`multiReduction_minimumf_single`, `hostReduce_minimumf_single`). Any shapes.
-/
import Idealize.ShloMosaic.PureOps.Ideal
import Idealize.ShloMosaic.PureOps.Ideal.Laws
import Idealize.ShloMosaic.PureOps.Reduce
import proofs.«109812_j51462298141282_1_alg».proof.Proof.LibBlockMin

noncomputable section

namespace SqrtMin

open Idealize.ShloMosaic

/-- The ideal square root is monotone on the whole extended real line. -/
theorem sqrt_mono : Monotone Ideal.sqrt := by
  intro x y h
  induction x using EReal.rec with
  | bot => exact bot_le
  | top =>
    obtain rfl : y = ⊤ := top_le_iff.mp h
    exact le_rfl
  | coe a =>
    induction y using EReal.rec with
    | bot => exact absurd h (by simp)
    | top => exact le_top
    | coe b =>
      have hab : a ≤ b := EReal.coe_le_coe_iff.mp h
      rw [Ideal.sqrt_coe, Ideal.sqrt_coe]
      by_cases ha : a < 0
      · rw [if_pos ha]; exact bot_le
      · rw [if_neg ha, if_neg (by linarith)]
        exact EReal.coe_le_coe_iff.mpr (Real.sqrt_le_sqrt hab)

/-- So it commutes with the minimum of two values, -/
theorem sqrt_min (x y : EReal) : Ideal.sqrt (min x y) = min (Ideal.sqrt x) (Ideal.sqrt y) := sqrt_mono.map_min

/-- and with the infimum of a finite family (the empty one included: `√⊤ = ⊤`). -/
theorem sqrt_iInf {ι : Type*} [Fintype ι] (g : ι → EReal) : Ideal.sqrt (⨅ k, g k) = ⨅ k, Ideal.sqrt (g k) := by
  rw [← BlockMin.fold_min_top_eq_iInf, ← BlockMin.fold_min_top_eq_iInf]
  have h := Finset.fold_hom (op := min) (op' := min) (s := (Finset.univ : Finset ι)) (b := (⊤ : EReal)) (f := g)
    (m := Ideal.sqrt) sqrt_min
  rw [← h, Ideal.sqrt_top]

/-- The f32 pattern of `+∞` is the top extended real. -/
theorem ofBits_inf_f32 : Ideal.ofBits .f32 0x7F800000#32 = ⊤ := by simp [Ideal.ofBits, Ideal.ieee]

variable {φ : FTy}

/-- A float `vector.multi_reduction <minimumf>` over one axis, read at `Ideal`: the fold of `min` from the accumulator's
    value over that axis's coordinates. -/
theorem multiReduction_minimumf_fold {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- From the f32 pattern of `+∞`: the infimum over that axis's coordinates. -/
theorem multiReduction_minimumf_single {s t : Shape} {a : Fin s.rank} (src : FVec Ideal s .f32)
    (h : s.Reduces [a] t) (hφ : FKind.Formats .f32) (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_fold]
  show (Finset.univ : Finset (Fin (s.size a))).fold min (Ideal.ofBits .f32 0x7F800000#32) (src ∘ h.lift j) = _
  rw [ofBits_inf_f32]
  exact BlockMin.fold_min_top_eq_iInf _

/-- The host's one-operand `stablehlo.reduce` with a `minimum` body over one axis, from an initial value that is `⊤`:
    the infimum over that axis's coordinates. -/
theorem hostReduce_minimumf_single {s t u : Shape} {a : Fin s.rank} (x : s.Idx → EReal) (init : u.Idx → EReal)
    (h' : s.ReducesTo [a] t) (h : s.Reduces [a] t) (hu : 0 < u.numel) (hinit : init (Shape.Idx.first hu) = ⊤) (j : t.Idx) :
    Host.reduce (FloatOps.minimumf (F := Ideal) (φ := .f32)) x init h' hu j = ⨅ k : Fin (s.size a), x (h.lift j k) := by
  rw [Host.reduce_eq_fold_single (FloatOps.minimumf (F := Ideal) (φ := .f32)) x init h' h hu j, hinit]
  exact BlockMin.fold_min_top_eq_iInf _

end SqrtMin

end
-- ==== Proof.KernelPay.lean ====
/-
  The body's four payloads read at an entry, at the ideal values.

  Row `r` of the output block [1, 128, 1] is keypoint `r` of the batch. With `kp` the keypoint block [1, 3, 128] and
  `pc` one tile [1, 3, 4096] of the cloud:
    `tileSq kp pc r k = Σ_c (kp[0,c,r] − pc[0,c,k])²` is the squared distance from keypoint `r` to the tile's point `k`
      (the body adds the three squares to a zero array one after the other; a sum in the extended reals does not
      depend on that order);
    the tile minimum at row `r` is the infimum over `k` of `tileSq kp pc r k` (a lane reduction from `+∞`);
    the accumulation step takes the minimum of the old entry and the tile minimum;
    the closing step takes the square root of the entry; the reset block is `+∞` everywhere.
  Every coordinate of a keypoint is spread along the lanes as a column and every coordinate of a point down the rows
  as a row, so entry (r, k) of either spread array is the block's entry at that coordinate.
-/
import proofs.«109812_j51462298141282_1_alg».proof.Proof.Gen.KernelIdeal.Skeleton
import proofs.«109812_j51462298141282_1_alg».proof.Proof.LibColumn
import proofs.«109812_j51462298141282_1_alg».proof.Proof.LibSqrtMin
import Idealize.ShloMosaic.Lib.ValueIdx
import Idealize.ShloMosaic.Lib.ValueLayout
import Idealize.ShloMosaic.Lib.Pipeline.Value

noncomputable section

namespace Cert.KernelIdeal.Pay

open Cert.KernelIdeal Cert.KernelIdeal.Gen Idealize.ShloMosaic Idealize.ShloMosaic.ValueIdx Cert.LibColumn

/-- The squared distance from keypoint `r` of the block to point `k` of the tile. -/
def tileSq (kp : S1x3x128.Idx → EReal) (pc : S1x3x4096.Idx → EReal) (r : Fin 128) (k : Fin 4096) : EReal :=
  ∑ c : Fin 3, (kp (ix3 (0 : Fin 1) c r) - pc (ix3 (0 : Fin 1) c k)) * (kp (ix3 (0 : Fin 1) c r) - pc (ix3 (0 : Fin 1) c k))

/-- Coordinate `c` of the keypoints, cut out as a row, turned into a column and spread along the lanes: entry (r, k)
    is the block's entry (0, c, r). -/
theorem kpSpread_apply (kp : S1x3x128.Idx → EReal) (off : Fin 2 → Nat) (c : Fin 3) (hoff : off = ![c.val, 0])
    (h1 : S1x3x128.ShapeCasts S3x128) (h2 : S3x128.Slices off S1x128) (h3 : S1x128.ShapeCasts S128)
    (h4 : S128.ShapeCasts S128x1) (h5 : S128x1.Broadcasts S128x4096) (r : Fin 128) (k : Fin 4096) :
    broadcastTo S128x4096 (shapeCast S128x1 (shapeCast S128 (extractStridedSlice S1x128 off (shapeCast S3x128 kp h1) h2) h3) h4) h5 (ix2 r k)
      = kp (ix3 (0 : Fin 1) c r) := by
  subst hoff
  rw [broadcastTo_a1_ab_apply, shapeCast_a_a1_apply, shapeCast_1a_a_apply,
    extractStridedSlice_apply _ _ h2 _ (ix2 c r) (fun a => by match a with | ⟨0, _⟩ => rfl | ⟨1, _⟩ => exact (Nat.zero_add _).symm)]
  exact shapeCast_1ab_ab_apply kp h1 c r

/-- Coordinate `c` of the tile's points, cut out as a row and spread down the rows: entry (r, k) is the tile's entry
    (0, c, k). -/
theorem pcSpread_apply (pc : S1x3x4096.Idx → EReal) (off : Fin 2 → Nat) (c : Fin 3) (hoff : off = ![c.val, 0])
    (h1 : S1x3x4096.ShapeCasts S3x4096) (h2 : S3x4096.Slices off S1x4096) (h3 : S1x4096.ShapeCasts S4096)
    (h4 : S4096.ShapeCasts S1x4096) (h5 : S1x4096.Broadcasts S128x4096) (r : Fin 128) (k : Fin 4096) :
    broadcastTo S128x4096 (shapeCast S1x4096 (shapeCast S4096 (extractStridedSlice S1x4096 off (shapeCast S3x4096 pc h1) h2) h3) h4) h5 (ix2 r k)
      = pc (ix3 (0 : Fin 1) c k) := by
  subst hoff
  rw [broadcastTo_1b_ab_apply, shapeCast_a_1a_apply, shapeCast_1a_a_apply,
    extractStridedSlice_apply _ _ h2 _ (ix2 c k) (fun a => by match a with | ⟨0, _⟩ => rfl | ⟨1, _⟩ => exact (Nat.zero_add _).symm)]
  exact shapeCast_1ab_ab_apply pc h1 c k

/-- The tile minimum at row `r`: the least squared distance from keypoint `r` to the tile's points. -/
theorem tileMin_apply (kp : S1x3x128.Idx → EReal) (pc : S1x3x4096.Idx → EReal) (r : Fin 128) (z : Fin 1) :
    k0_pay4 (F := Ideal) kp pc (ix2 r z) = ⨅ k : Fin 4096, tileSq kp pc r k := by
  unfold k0_pay4
  refine (shapeCast_a_a1_apply _ shapeCasts_S128_S128x1 r z).trans ?_
  refine (SqrtMin.multiReduction_minimumf_single _ reduces_S128x4096_S128 (.inl rfl) rfl (ix1 r)).trans ?_
  refine iInf_congr fun (k : Fin 4096) => ?_
  rw [show reduces_S128x4096_S128.lift (ix1 r) k = ix2 r k from
    funext fun a => Fin.ext (by match a with | ⟨0, _⟩ => rfl | ⟨1, _⟩ => rfl)]
  have hs : Scalar.ofBits (F := Ideal) .f32 0x00000000#32 = (0 : EReal) := Ideal.ofBits_zero_f32
  simp only [addf_apply, mulf_apply, subf_apply, broadcast_apply, hs, zero_add, tileSq, Fin.sum_univ_three]
  rw [kpSpread_apply kp ![0, 0] 0 rfl, kpSpread_apply kp ![1, 0] 1 rfl, kpSpread_apply kp ![2, 0] 2 rfl,
    pcSpread_apply pc ![0, 0] 0 rfl, pcSpread_apply pc ![1, 0] 1 rfl, pcSpread_apply pc ![2, 0] 2 rfl]

/-- The accumulation step at row `r`: the minimum of the old entry and the tile minimum's. -/
theorem minStep_apply (tm : S128x1.Idx → EReal) (acc : S1x128x1.Idx → EReal) (r : Fin 128) :
    k0_pay1 (F := Ideal) tm acc (ix3 (0 : Fin 1) r (0 : Fin 1)) = min (acc (ix3 (0 : Fin 1) r (0 : Fin 1))) (tm (ix2 r (0 : Fin 1))) := by
  unfold k0_pay1
  rw [shapeCast_ab_1ab_apply, minimumf_apply, shapeCast_1ab_ab_apply]

/-- The closing step at row `r`: the square root of the entry. -/
theorem sqrtStep_apply (acc : S1x128x1.Idx → EReal) (r : Fin 128) :
    k0_pay2 (F := Ideal) acc (ix3 (0 : Fin 1) r (0 : Fin 1)) = Ideal.sqrt (acc (ix3 (0 : Fin 1) r (0 : Fin 1))) := by
  unfold k0_pay2
  rw [shapeCast_ab_1ab_apply]
  show Ideal.sqrt (shapeCast S128x1 acc _ (ix2 r (0 : Fin 1))) = _
  rw [shapeCast_1ab_ab_apply]

/-- The reset block is `+∞` at every entry. -/
theorem reset_apply (i : S1x128x1.Idx) : k0_pay3 (F := Ideal) i = ⊤ := by
  unfold k0_pay3
  unfold shapeCast
  exact SqrtMin.ofBits_inf_f32

end Cert.KernelIdeal.Pay

end
-- ==== Proof.Dist.lean ====
/-
  What both programs compute, as one function of the two argument arrays.

  `kp` is [16, 3, 128] (batch, coordinate, keypoint) and `pc` is [16, 3, 16384] (batch, coordinate, point). For a batch
  `b`, a keypoint `r` and a point `n` the squared distance is `dsq kp pc b r n = Σ_c (kp[b,c,r] − pc[b,c,n])²`, and the
  least distance from keypoint `r` to the cloud is `minDist kp pc (b, r) = √(inf_n dsq kp pc b r n)`: the square root
  taken once, after the minimum. The result of either program is the mean of `minDist` over its 2048 entries,
  `meanOf`: the sum from zero over both axes, divided by 2048.
-/
import Idealize.ShloMosaic.PureOps.Ideal
import Idealize.ShloMosaic.Lib.ValueIdx
import proofs.«109812_j51462298141282_1_alg».proof.Proof.LibSqrtMin

noncomputable section

namespace Cert.MinDist

open Idealize.ShloMosaic Idealize.ShloMosaic.ValueIdx

abbrev SKp : Shape := ⟨3, ![16, 3, 128]⟩
abbrev SPc : Shape := ⟨3, ![16, 3, 16384]⟩
abbrev SOut : Shape := ⟨2, ![16, 128]⟩
abbrev S0 : Shape := ⟨0, ![]⟩

/-- The squared distance between keypoint `r` and point `n` of batch `b`: the sum over the three coordinates of the
    squared differences. -/
def dsq (kp : SKp.Idx → EReal) (pc : SPc.Idx → EReal) (b : Fin 16) (r : Fin 128) (n : Fin 16384) : EReal :=
  ∑ c : Fin 3, (kp (ix3 b c r) - pc (ix3 b c n)) * (kp (ix3 b c r) - pc (ix3 b c n))

/-- The least distance from each keypoint to its batch's cloud: the square root of the least squared distance. -/
def minDist (kp : SKp.Idx → EReal) (pc : SPc.Idx → EReal) : SOut.Idx → EReal :=
  fun i => Ideal.sqrt (⨅ n : Fin 16384, dsq kp pc (i 0) (i 1) n)

theorem minDist_apply (kp : SKp.Idx → EReal) (pc : SPc.Idx → EReal) (b : Fin 16) (r : Fin 128) :
    minDist kp pc (ix2 b r) = Ideal.sqrt (⨅ n : Fin 16384, dsq kp pc b r n) := rfl

/-- The same with the square root inside: the least of the distances. -/
theorem minDist_apply' (kp : SKp.Idx → EReal) (pc : SPc.Idx → EReal) (b : Fin 16) (r : Fin 128) :
    minDist kp pc (ix2 b r) = ⨅ n : Fin 16384, Ideal.sqrt (dsq kp pc b r n) :=
  (minDist_apply kp pc b r).trans (SqrtMin.sqrt_iInf _)

/-- The mean both programs end with: the host's sum over both axes from the zero word, divided by the word of 2048. -/
def meanOf (h : SOut.ReducesTo [0, 1] S0) (hu : 0 < S0.numel) (x : SOut.Idx → EReal) : S0.Idx → EReal :=
  Host.divf (F := Ideal) (φ := .f32) (Host.reduceAdd (F := Ideal) (φ := .f32) x (constant (F := Ideal) S0 .f32 0x00000000#32) h hu)
    (constant (F := Ideal) S0 .f32 0x45000000#32)

end Cert.MinDist

end
-- ==== Proof.KernelAcc.lean ====
/-
  What the output block's staging buffer holds after each grid point.

  The grid is 16 batches by 4 tiles, walked batch by batch: point `n` is tile `n % 4` of batch `n / 4`. The keypoint
  block of a point is its batch's [3, 128] slab; its cloud block is columns `4096 · (n % 4) …` of the batch's
  [3, 16384] slab. So the tile minimum at row `r` is the infimum of the batch's squared distances `dsq` over block
  `n % 4` of the 16384 points, and, by induction on the point, after point `n` row `r` of the buffer holds the
  infimum over the first `n % 4 + 1` blocks — and the square root of the infimum over all four when `n % 4 = 3`.
-/
import proofs.«109812_j51462298141282_1_alg».proof.Proof.Gen.KernelIdeal.Frame
import proofs.«109812_j51462298141282_1_alg».proof.Proof.KernelPieces
import proofs.«109812_j51462298141282_1_alg».proof.Proof.KernelPay
import proofs.«109812_j51462298141282_1_alg».proof.Proof.Dist
import Idealize.ShloMosaic.Lib.Pipeline.Value

noncomputable section

namespace Cert.KernelIdeal.Acc

open Cert.KernelIdeal Cert.KernelIdeal.Gen Idealize.ShloMosaic Idealize.ShloMosaic.TcCoe Idealize.SL.Sem
open Idealize.ShloMosaic.ValueIdx Cert.MinDist

variable (m : (ℓ : Loc nD τ sig) → Buf (Elt Ideal) ℓ)

/-- The two argument arrays as the region finds them, and a point's two input blocks, at their literal types. -/
abbrev kpArr (c : Dev nD) : S16x3x128.Idx → EReal := V m c main_arg0
abbrev pcArr (c : Dev nD) : S16x3x16384.Idx → EReal := V m c main_arg1
abbrev kpBlk (c : Dev nD) (t : Fin cfg0.N) : S1x3x128.Idx → EReal := iblk m c 0 t
abbrev pcBlk (c : Dev nD) (t : Fin cfg0.N) : S1x3x4096.Idx → EReal := iblk m c 1 t

/-- The batch of point `n`. -/
def bat (n : ℕ) : Fin 16 := ⟨n / 4 % 16, Nat.mod_lt _ (by decide)⟩

/-- The block indices of the three windows at a point: (batch, 0, 0), (batch, 0, tile), (batch, 0, 0). -/
theorem idx_kp : ∀ t : Fin cfg0.N, win0_0.index t (0 : Fin 3) = t.val / 4 ∧ win0_0.index t (1 : Fin 3) = 0 ∧ win0_0.index t (2 : Fin 3) = 0 :=
  (by decide +kernel : ∀ t : Fin grid0.N, win0_0.index t (0 : Fin 3) = t.val / 4 ∧ win0_0.index t (1 : Fin 3) = 0 ∧ win0_0.index t (2 : Fin 3) = 0)
theorem idx_pc : ∀ t : Fin cfg0.N, win0_1.index t (0 : Fin 3) = t.val / 4 ∧ win0_1.index t (1 : Fin 3) = 0 ∧ win0_1.index t (2 : Fin 3) = t.val % 4 :=
  (by decide +kernel : ∀ t : Fin grid0.N, win0_1.index t (0 : Fin 3) = t.val / 4 ∧ win0_1.index t (1 : Fin 3) = 0 ∧ win0_1.index t (2 : Fin 3) = t.val % 4)

/-- The keypoint block of a point is its batch's slab. -/
theorem kpBlk_apply (c : Dev nD) (t : Fin cfg0.N) (cc : Fin 3) (r : Fin 128) :
    kpBlk m c t (ix3 (0 : Fin 1) cc r) = kpArr m c (ix3 (bat t.val) cc r) := by
  obtain ⟨i0, i1, i2⟩ := idx_kp t
  have hN : t.val < 64 := lt_of_lt_of_eq t.isLt N_0
  show iblk m c 0 t _ = _
  unfold iblk
  rw [View.read_apply]
  show V m c main_arg0 _ = V m c main_arg0 _
  congr 1
  funext a
  apply Fin.ext
  match a with
  | ⟨0, _⟩ => show win0_0.index t 0 * 1 + 1 * 0 = t.val / 4 % 16; rw [i0]; omega
  | ⟨1, _⟩ => show win0_0.index t 1 * 3 + 1 * cc.val = cc.val; rw [i1]; omega
  | ⟨2, _⟩ => show win0_0.index t 2 * 128 + 1 * r.val = r.val; rw [i2]; omega

/-- The cloud block of a point is block `n % 4` of its batch's slab. -/
theorem pcBlk_apply (c : Dev nD) (t : Fin cfg0.N) (cc : Fin 3) (k : Fin 4096) :
    pcBlk m c t (ix3 (0 : Fin 1) cc k)
      = pcArr m c (ix3 (bat t.val) cc (⟨4096 * (t.val % 4) + k.val, by have := k.isLt; omega⟩ : Fin 16384)) := by
  obtain ⟨i0, i1, i2⟩ := idx_pc t
  have hN : t.val < 64 := lt_of_lt_of_eq t.isLt N_0
  show iblk m c 1 t _ = _
  unfold iblk
  rw [View.read_apply]
  show V m c main_arg1 _ = V m c main_arg1 _
  congr 1
  funext a
  apply Fin.ext
  match a with
  | ⟨0, _⟩ => show win0_1.index t 0 * 1 + 1 * 0 = t.val / 4 % 16; rw [i0]; omega
  | ⟨1, _⟩ => show win0_1.index t 1 * 3 + 1 * cc.val = cc.val; rw [i1]; omega
  | ⟨2, _⟩ => show win0_1.index t 2 * 4096 + 1 * k.val = 4096 * (t.val % 4) + k.val; rw [i2]; omega

/-- The squared distances of batch `n / 4` from keypoint `r`, over all 16384 points. -/
abbrev sq (c : Dev nD) (n : ℕ) (r : Fin 128) : Fin 16384 → EReal := dsq (kpArr m c) (pcArr m c) (bat n) r

theorem tile_bound (n : ℕ) : 4096 * (n % 4 + 1) ≤ 16384 := by omega

/-- The tile minimum of a point is the infimum of its batch's squared distances over block `n % 4`. -/
theorem tile_eq (c : Dev nD) (t : Fin cfg0.N) (r : Fin 128) :
    (⨅ k : Fin 4096, Pay.tileSq (kpBlk m c t) (pcBlk m c t) r k)
      = BlockMin.tile 4096 (sq m c t.val r) (t.val % 4) (tile_bound t.val) := by
  unfold BlockMin.tile
  refine iInf_congr fun k => ?_
  unfold Pay.tileSq
  show _ = dsq (kpArr m c) (pcArr m c) (bat t.val) r _
  unfold dsq
  refine Finset.sum_congr rfl fun cc _ => ?_
  rw [kpBlk_apply, pcBlk_apply]

/-- What row `r` of the buffer holds after point `n`. -/
def accAt (c : Dev nD) (n : ℕ) (r : Fin 128) : EReal :=
  if n % 4 = 3 then Ideal.sqrt (BlockMin.pre 4096 (sq m c n r) 4) else BlockMin.pre 4096 (sq m c n r) (n % 4 + 1)

/-- The minimum step of a point, read at row `r`, over an old entry `old`. -/
theorem step_apply (c : Dev nD) (t : Fin cfg0.N) (old : S1x128x1.Idx → EReal) (r : Fin 128) :
    k0_pay1 (F := Ideal) (k0_pay4 (F := Ideal) (kpBlk m c t) (pcBlk m c t)) old (ix3 (0 : Fin 1) r (0 : Fin 1))
      = min (old (ix3 (0 : Fin 1) r (0 : Fin 1))) (BlockMin.tile 4096 (sq m c t.val r) (t.val % 4) (tile_bound t.val)) := by
  refine (Pay.minStep_apply _ old r).trans ?_
  rw [Pay.tileMin_apply (kpBlk m c t) (pcBlk m c t) r 0, tile_eq]

/-- A batch's first tile. -/
theorem first_tile (c : Dev nD) (t : Fin cfg0.N) (h0 : t.val % 4 = 0) (h1 : ¬t.val % 4 = 3) (r : Fin 128) :
    (outsAt0 m c t.val t.isLt : S1x128x1.Idx → EReal) (ix3 (0 : Fin 1) r (0 : Fin 1)) = accAt m c t.val r := by
  rw [outsAt0_A m c t h0 h1]
  refine (congrFun (Pieces.out_A (F := Ideal) c (grid0.coords t) (ms0_0 t) (hs0_0 t) (ms0_1 t) (hs0_1 t) (ms0_2 t) (hs0_2 t)
    ((hcond0_0 t).mpr h0) (fun h => h1 ((hcond0_1 t).mp h)) (iblk m c 0 t) (iblk m c 1 t)) (ix3 (0 : Fin 1) r (0 : Fin 1))).trans ?_
  refine (step_apply m c t _ r).trans ?_
  rw [Pay.reset_apply]
  unfold accAt
  rw [if_neg h1, BlockMin.pre_succ 4096 _ (t.val % 4) (tile_bound t.val)]
  congr 1
  rw [h0]
  exact (BlockMin.pre_zero 4096 _).symm

/-- A batch's later tiles continue from what the point before left. -/
theorem prev_facts (t : Fin cfg0.N) (h0 : ¬t.val % 4 = 0) :
    bat (t.val - 1) = bat t.val ∧ (t.val - 1) % 4 + 1 = t.val % 4 ∧ ¬(t.val - 1) % 4 = 3 := by
  refine ⟨Fin.ext ?_, ?_, ?_⟩
  · show (t.val - 1) / 4 % 16 = t.val / 4 % 16
    omega
  · omega
  · omega

theorem middle_tile (c : Dev nD) (t : Fin cfg0.N) (h0 : ¬t.val % 4 = 0) (h1 : ¬t.val % 4 = 3) (r : Fin 128)
    (ih : (outsAt0 m c (t.val - 1) (Nat.lt_of_le_of_lt (Nat.sub_le _ _) t.isLt) : S1x128x1.Idx → EReal) (ix3 (0 : Fin 1) r (0 : Fin 1))
      = accAt m c (t.val - 1) r) :
    (outsAt0 m c t.val t.isLt : S1x128x1.Idx → EReal) (ix3 (0 : Fin 1) r (0 : Fin 1)) = accAt m c t.val r := by
  obtain ⟨hb, hj, h3⟩ := prev_facts t h0
  rw [outsAt0_B m c t h0 h1]
  refine (congrFun (Pieces.out_B (F := Ideal) c (grid0.coords t) (ms0_0 t) (hs0_0 t) (ms0_1 t) (hs0_1 t) (ms0_2 t) (hs0_2 t)
    (fun h => h0 ((hcond0_0 t).mp h)) (fun h => h1 ((hcond0_1 t).mp h)) (iblk m c 0 t) (iblk m c 1 t)
    (outsAt0 m c (t.val - 1) (Nat.lt_of_le_of_lt (Nat.sub_le _ _) t.isLt))) (ix3 (0 : Fin 1) r (0 : Fin 1))).trans ?_
  refine (step_apply m c t _ r).trans ?_
  rw [ih]
  unfold accAt
  rw [if_neg h1, if_neg h3, BlockMin.pre_succ 4096 _ (t.val % 4) (tile_bound t.val)]
  congr 1
  show BlockMin.pre 4096 (dsq (kpArr m c) (pcArr m c) (bat (t.val - 1)) r) ((t.val - 1) % 4 + 1) = _
  rw [hb, hj]

theorem last_tile (c : Dev nD) (t : Fin cfg0.N) (h0 : ¬t.val % 4 = 0) (h1 : t.val % 4 = 3) (r : Fin 128)
    (ih : (outsAt0 m c (t.val - 1) (Nat.lt_of_le_of_lt (Nat.sub_le _ _) t.isLt) : S1x128x1.Idx → EReal) (ix3 (0 : Fin 1) r (0 : Fin 1))
      = accAt m c (t.val - 1) r) :
    (outsAt0 m c t.val t.isLt : S1x128x1.Idx → EReal) (ix3 (0 : Fin 1) r (0 : Fin 1)) = accAt m c t.val r := by
  obtain ⟨hb, hj, h3⟩ := prev_facts t h0
  rw [outsAt0_C m c t h0 h1]
  refine (congrFun (Pieces.out_C (F := Ideal) c (grid0.coords t) (ms0_0 t) (hs0_0 t) (ms0_1 t) (hs0_1 t) (ms0_2 t) (hs0_2 t)
    (fun h => h0 ((hcond0_0 t).mp h)) ((hcond0_1 t).mpr h1) (iblk m c 0 t) (iblk m c 1 t)
    (outsAt0 m c (t.val - 1) (Nat.lt_of_le_of_lt (Nat.sub_le _ _) t.isLt))) (ix3 (0 : Fin 1) r (0 : Fin 1))).trans ?_
  refine (Pay.sqrtStep_apply _ r).trans ?_
  unfold accAt
  rw [if_pos h1]
  refine congrArg Ideal.sqrt ?_
  refine (step_apply m c t _ r).trans ?_
  rw [ih]
  unfold accAt
  rw [if_neg h3]
  have e : BlockMin.pre 4096 (sq m c t.val r) 4 = BlockMin.pre 4096 (sq m c t.val r) (t.val % 4 + 1) := by rw [h1]
  rw [e, BlockMin.pre_succ 4096 _ (t.val % 4) (tile_bound t.val)]
  congr 1
  show BlockMin.pre 4096 (dsq (kpArr m c) (pcArr m c) (bat (t.val - 1)) r) ((t.val - 1) % 4 + 1) = _
  rw [hb, hj]

/-- After every point the buffer's row `r` holds the running infimum of its batch, by induction on the point. -/
theorem acc_eq (c : Dev nD) : ∀ (n : ℕ) (hn : n < cfg0.N) (r : Fin 128),
    (outsAt0 m c n hn : S1x128x1.Idx → EReal) (ix3 (0 : Fin 1) r (0 : Fin 1)) = accAt m c n r := by
  intro n
  induction n with
  | zero => intro hn r; exact first_tile m c ⟨0, hn⟩ rfl (show ¬(0 % 4 = 3) by decide) r
  | succ n ih =>
    intro hn r
    by_cases h0 : (n + 1) % 4 = 0
    · exact first_tile m c ⟨n + 1, hn⟩ h0 (show ¬((n + 1) % 4 = 3) by omega) r
    · by_cases h1 : (n + 1) % 4 = 3
      · exact last_tile m c ⟨n + 1, hn⟩ h0 h1 r (ih (Nat.lt_of_succ_lt hn) r)
      · exact middle_tile m c ⟨n + 1, hn⟩ h0 h1 r (ih (Nat.lt_of_succ_lt hn) r)

end Cert.KernelIdeal.Acc

end
-- ==== Proof.KernelValue.lean ====
/-
  The kernel's run, read: its result is the mean of the least distances.

  The output block of batch `b` is written back once, after the batch's last tile, when row `r` of the staging
  buffer holds the square root of the infimum of the batch's squared distances over all 16384 points: the least
  distance `minDist (b, r)`. The sixteen write-backs tile the [16, 128, 1] result array, which therefore ends
  holding `minDist` with a trailing unit axis. The host lines after the region drop that axis and take the mean.
-/
import proofs.«109812_j51462298141282_1_alg».proof.Proof.KernelAcc
import Idealize.ShloMosaic.Lib.StableHlo.Run

noncomputable section

namespace Cert.KernelIdeal.Val

open Cert.KernelIdeal Cert.KernelIdeal.Gen Idealize.ShloMosaic Idealize.ShloMosaic.TcCoe Idealize.SL.Sem
open Idealize.ShloMosaic.ValueIdx Cert.MinDist Cert.KernelIdeal.Acc
open Idealize.ShloMosaic.Pipeline (Dat)

variable (m : (ℓ : Loc nD τ sig) → Buf (Elt Ideal) ℓ) (ρ : Dev nD → PrngReg)

/-- The result array of the region: the least distances, with the trailing unit axis. -/
def outArr (c : Dev nD) : S16x128x1.Idx → EReal := fun i => minDist (kpArr m c) (pcArr m c) (ix2 (i 0) (i 1))

/-- The output window's block index at a point: (batch, 0, 0). -/
theorem idx_out : ∀ t : Fin cfg0.N, win0_2.index t (0 : Fin 3) = t.val / 4 ∧ win0_2.index t (1 : Fin 3) = 0 ∧ win0_2.index t (2 : Fin 3) = 0 :=
  (by decide +kernel : ∀ t : Fin grid0.N, win0_2.index t (0 : Fin 3) = t.val / 4 ∧ win0_2.index t (1 : Fin 3) = 0 ∧ win0_2.index t (2 : Fin 3) = 0)

/-- What a batch's last point writes back is that batch's block of the least distances. -/
theorem flushed_eq (c : Dev nD) (t : Fin cfg0.N) (hf : (cfg0.win 2).flush t = true) :
    (dats m 0 c).flushed 2 t = ((cfg0.win 2).blk t).view.read (Elt Ideal) (outArr m c) := by
  have h3 : t.val % 4 = 3 := (flush0_2 t).mp hf
  have hN : t.val < 64 := lt_of_lt_of_eq t.isLt N_0
  obtain ⟨j0, j1, j2⟩ := idx_out t
  show (cfg0.win 2).cut (grid0.coords t) ((dats m 0 c).after 2 t) = _
  rw [after0_2]
  funext y
  obtain ⟨u, r, z, rfl⟩ : ∃ (u : Fin 1) (r : Fin 128) (z : Fin 1), y = ix3 u r z := ⟨y 0, y 1, y 2, eq_ix3 y⟩
  obtain rfl : u = 0 := Subsingleton.elim _ _
  obtain rfl : z = 0 := Subsingleton.elim _ _
  show (outsAt0 m c t.val t.isLt : S1x128x1.Idx → EReal) (ix3 (0 : Fin 1) r (0 : Fin 1))
    = outArr m c (((cfg0.win 2).blk t).view.emb (ix3 (0 : Fin 1) r (0 : Fin 1)))
  rw [acc_eq]
  unfold accAt outArr
  rw [if_pos h3, BlockMin.pre_all 4096 _ 4 (by decide)]
  show minDist (kpArr m c) (pcArr m c) (ix2 (bat t.val) r) = _
  refine congrArg (minDist (kpArr m c) (pcArr m c)) (funext fun a => Fin.ext ?_)
  match a with
  | ⟨0, _⟩ => show t.val / 4 % 16 = win0_2.index t 0 * 1 + 1 * 0; rw [j0]; omega
  | ⟨1, _⟩ => show r.val = win0_2.index t 1 * 128 + 1 * r.val; rw [j1]; omega

/-- An index of the result array is in a point's block iff each coordinate is in the block's range. -/
theorem mem_blk (t : Fin cfg0.N) (i : S16x128x1.Idx) :
    i ∈ ((cfg0.win 2).blk t).view.set ↔ ∀ a : Fin 3, win0_2.index t a * S1x128x1.size a ≤ (i a).val ∧ (i a).val < win0_2.index t a * S1x128x1.size a + S1x128x1.size a := by
  show i ∈ ((View.whole main_v0).slice (win0_2.rect t)).set ↔ _
  rw [View.set_slice_whole, Rect.mem_set_unit]
  exact Iff.rfl

/-- The sixteen write-backs cover the result array, so it ends holding the least distances. -/
theorem final_out (c : Dev nD) : (dats m 0 c).arrAt 2 cfg0.N = outArr m c :=
  (dats m 0 c).arrAt_eq_of_cover 2 (outArr m c) (flushed_eq m c) fun i => by
    have h0 : (i 0).val < 16 := (i 0).isLt
    have h1 : (i 1).val < 128 := (i 1).isLt
    have h2 : (i 2).val < 1 := (i 2).isLt
    have hlt : 4 * (i 0).val + 3 < cfg0.N := by rw [show cfg0.N = 64 from N_0]; omega
    obtain ⟨j0, j1, j2⟩ := idx_out ⟨4 * (i 0).val + 3, hlt⟩
    refine ⟨⟨4 * (i 0).val + 3, hlt⟩, (flush0_2 _).mpr (by show (4 * (i 0).val + 3) % 4 = 3; omega), ?_⟩
    rw [mem_blk]
    intro a
    match a with
    | ⟨0, _⟩ =>
      show win0_2.index ⟨4 * (i 0).val + 3, hlt⟩ (0 : Fin 3) * 1 ≤ (i 0).val ∧ (i 0).val < win0_2.index ⟨4 * (i 0).val + 3, hlt⟩ (0 : Fin 3) * 1 + 1
      rw [j0]; show (4 * (i 0).val + 3) / 4 * 1 ≤ (i 0).val ∧ (i 0).val < (4 * (i 0).val + 3) / 4 * 1 + 1; omega
    | ⟨1, _⟩ =>
      show win0_2.index ⟨4 * (i 0).val + 3, hlt⟩ (1 : Fin 3) * 128 ≤ (i 1).val ∧ (i 1).val < win0_2.index ⟨4 * (i 0).val + 3, hlt⟩ (1 : Fin 3) * 128 + 128
      rw [j1]; omega
    | ⟨2, _⟩ =>
      show win0_2.index ⟨4 * (i 0).val + 3, hlt⟩ (2 : Fin 3) * 1 ≤ (i 2).val ∧ (i 2).val < win0_2.index ⟨4 * (i 0).val + 3, hlt⟩ (2 : Fin 3) * 1 + 1
      rw [j2]; omega

/-- Dropping the trailing unit axis gives the least distances back. -/
theorem reshape_out (c : Dev nD) (h : S16x128x1.ShapeCasts S16x128) :
    shapeCast S16x128 (outArr m c) h = minDist (kpArr m c) (pcArr m c) := by
  funext i
  obtain ⟨b, r, rfl⟩ : ∃ (b : Fin 16) (r : Fin 128), i = ix2 b r := ⟨i 0, i 1, eq_ix2 i⟩
  refine (shapeCast_apply (outArr m c) h (ix2 b r) (ix3 b r (0 : Fin 1)) ?_).trans rfl
  rw [Shape.rowMajor_val_three, Shape.rowMajor_val_two]
  show (b.val * 128 + r.val) * 1 + 0 = b.val * 128 + r.val
  omega

/-- The lines after the region leave the mean of the least distances in the result. -/
theorem tail_eq (c : Dev nD) :
    Pipeline.afterTail₀ cfgs (dats m) 0 (V0 m) [hostOps1] c main_v3
      = meanOf reducesTo_S16x128_S_d0_1 h_S_ (minDist (kpArr m c) (pcArr m c)) := by
  have hw : Pipeline.withArrays spec0 c (V0 m c) (fun w => (dats m 0 c).arrAt w cfg0.N) (Proc.devRef .tc main_v0) = outArr m c :=
    (Pipeline.withArrays_arr spec0 launch0.win.arr_inj c _ _ 2).trans (final_out m c)
  unfold Pipeline.afterTail₀
  show StableHlo.after hostOps1 _ (Proc.devRef .tc main_v3) = _
  after_results
  show Host.divf (F := Ideal) (φ := .f32) (Host.reduceAdd (F := Ideal) (φ := .f32) (shapeCast S16x128
      (Pipeline.withArrays spec0 c (V0 m c) (fun w => (dats m 0 c).arrAt w cfg0.N) (Proc.devRef .tc main_v0) : S16x128x1.Idx → EReal)
      shapeCasts_S16x128x1_S16x128) (constant (F := Ideal) S_ .f32 0x00000000#32) reducesTo_S16x128_S_d0_1 h_S_)
      (constant (F := Ideal) S_ .f32 0x45000000#32) = _
  rw [hw, reshape_out]
  rfl

/-- The kernel's run, read: the result at the mean of the least distances of the argument arrays, the arguments
    unchanged. -/
theorem run : θ_run defs (onTc (τ := τ) (main (F := Ideal))) ⟨m, fun _ => 0, ρ⟩ fun r => ∀ c : Dev nD,
      r.2.mem ((c : Thread nD τ).loc main_v3)
        = meanOf reducesTo_S16x128_S_d0_1 h_S_ (minDist (m ((c : Thread nD τ).loc main_arg0)) (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Val

end
-- ==== Proof.RefDist.lean ====
/-
  The reference's [16, 128] array before its mean is the least-distance function `minDist` of the two arguments.

  Index by index: the reference broadcasts both arrays to [16, 3, 128, 16384], subtracts, squares, sums over the
  coordinate axis from zero (the squared distance `dsq`), takes the square root of every entry, and then the minimum
  over the point axis from `+∞`: at (b, r) the infimum over `n` of `√(dsq b r n)`, which is `√` of the infimum because
  the square root is monotone.
-/
import proofs.«109812_j51462298141282_1_alg».proof.Proof.Gen.ReferenceIdeal.Read
import proofs.«109812_j51462298141282_1_alg».proof.Proof.Dist

noncomputable section

namespace Cert.ReferenceIdeal.RefDist

open Cert.ReferenceIdeal Cert.ReferenceIdeal.Gen Cert.ReferenceIdeal.Read Idealize.ShloMosaic Idealize.ShloMosaic.ValueIdx
open Cert.MinDist

/-- The shape fact of the minimum over the point axis, in the form that names the inserted coordinate. -/
theorem red_pts : S16x128x16384.Reduces [2] S16x128 := by decide

/-- The distance array at (b, r, n): the square root of the squared distance. -/
theorem dist_apply (x0 : (⟨S16x3x128, .f32⟩ : BufTy).Contents (Elt Ideal)) (x1 : (⟨S16x3x16384, .f32⟩ : BufTy).Contents (Elt Ideal))
    (b : Fin 16) (r : Fin 128) (n : Fin 16384) :
    val_main_v7 (F := Ideal) x0 x1 (ix3 b r n) = Ideal.sqrt (dsq x0 x1 b r n) := by
  have hkp : ∀ k : Fin 3, idx_main_v0 (idx_main_v2 (idx_main_v6 (ix3 b r n) k)) = ix3 b k r := fun k =>
    funext fun a => Fin.ext (by match a with | ⟨0, _⟩ => rfl | ⟨1, _⟩ => rfl | ⟨2, _⟩ => rfl)
  have hpc : ∀ k : Fin 3, idx_main_v1 (idx_main_v3 (idx_main_v6 (ix3 b r n) k)) = ix3 b k n := fun k =>
    funext fun a => Fin.ext (by match a with | ⟨0, _⟩ => rfl | ⟨1, _⟩ => rfl | ⟨2, _⟩ => rfl)
  rw [val_main_v7_apply, val_main_v6_apply]
  simp only [val_main_v5_apply, val_main_v4_apply, val_main_v2_apply, val_main_v3_apply, val_main_v0_apply,
    val_main_v1_apply, val_main_cst_apply, hkp, hpc, Ideal.hostUnary_sqrt_def, Ideal.ofBits_def, Ideal.ofBits_zero_f32,
    zero_add, Ideal.mulf_def, Ideal.subf_def]
  rfl

/-- The minimum over the points is the least distance. -/
theorem minStage_eq (x0 : (⟨S16x3x128, .f32⟩ : BufTy).Contents (Elt Ideal)) (x1 : (⟨S16x3x16384, .f32⟩ : BufTy).Contents (Elt Ideal)) :
    val_main_v8 (F := Ideal) x0 x1 = minDist x0 x1 := by
  funext i
  obtain ⟨b, r, rfl⟩ : ∃ (b : Fin 16) (r : Fin 128), i = ix2 b r := ⟨i 0, i 1, eq_ix2 i⟩
  rw [minDist_apply']
  unfold val_main_v8
  rw [SqrtMin.hostReduce_minimumf_single _ _ reducesTo_S16x128x16384_S16x128_d2 red_pts h_S_ SqrtMin.ofBits_inf_f32]
  refine iInf_congr fun n => ?_
  rw [show red_pts.lift (ix2 b r) n = ix3 b r n from
    funext fun a => Fin.ext (by match a with | ⟨0, _⟩ => rfl | ⟨1, _⟩ => rfl | ⟨2, _⟩ => rfl)]
  exact dist_apply x0 x1 b r n

/-- So the reference's result is the mean of the least distances. -/
theorem result_eq (x0 : (⟨S16x3x128, .f32⟩ : BufTy).Contents (Elt Ideal)) (x1 : (⟨S16x3x16384, .f32⟩ : BufTy).Contents (Elt Ideal)) :
    val_main_v10 (F := Ideal) x0 x1 = meanOf reducesTo_S16x128_S_d0_1 h_S_ (minDist x0 x1) := by
  unfold val_main_v10 val_main_v9
  rw [minStage_eq]
  rfl

end Cert.ReferenceIdeal.RefDist

end
-- ==== Proof.lean ====
/-
  The least distance from each keypoint to a point cloud, averaged: the kernel against its reference.

  For keypoints `kp` [16, 3, 128] and a cloud `pc` [16, 3, 16384] both programs return the mean over (b, r) of
  `minDist kp pc (b, r) = √(inf_n Σ_c (kp[b,c,r] − pc[b,c,n])²)`.
  The reference takes the square root of every squared distance and then the minimum over the points. The kernel walks
  each batch's cloud in four tiles of 4096 points, keeps the running minimum of the SQUARED distances in its output
  block, and takes one square root per keypoint after the last tile. The two agree because the ideal square root is
  monotone on the extended reals and sends `+∞` to `+∞`, so it commutes with a finite infimum; a minimum over 16384
  points is the minimum of the minima over four consecutive blocks; and a sum of three terms in the extended reals does
  not depend on the order in which they are added to zero. Neither step needs the inputs to be finite.
  The three frames are the generated ones (the reference's is its generated run with the result dropped), and the
  idealization rewrote nothing.
-/
import proofs.«109812_j51462298141282_1_alg».proof.Defs
import proofs.«109812_j51462298141282_1_alg».proof.Proof.Gen.Kernel
import proofs.«109812_j51462298141282_1_alg».proof.Proof.Gen.Kernel.Skeleton
import proofs.«109812_j51462298141282_1_alg».proof.Proof.Gen.Kernel.Launch
import proofs.«109812_j51462298141282_1_alg».proof.Proof.Gen.Kernel.Points
import proofs.«109812_j51462298141282_1_alg».proof.Proof.Gen.Kernel.Frame
import proofs.«109812_j51462298141282_1_alg».proof.Proof.Gen.KernelIdeal
import proofs.«109812_j51462298141282_1_alg».proof.Proof.Gen.KernelIdeal.Skeleton
import proofs.«109812_j51462298141282_1_alg».proof.Proof.Gen.KernelIdeal.Launch
import proofs.«109812_j51462298141282_1_alg».proof.Proof.Gen.KernelIdeal.Points
import proofs.«109812_j51462298141282_1_alg».proof.Proof.Gen.KernelIdeal.Frame
import proofs.«109812_j51462298141282_1_alg».proof.Proof.Gen.ReferenceIdeal
import proofs.«109812_j51462298141282_1_alg».proof.Proof.Gen.Pre_finite_inputs
import proofs.«109812_j51462298141282_1_alg».proof.Proof.Gen.ReferenceIdeal.Run
import proofs.«109812_j51462298141282_1_alg».proof.Proof.Gen.ReferenceIdeal.Read
import proofs.«109812_j51462298141282_1_alg».proof.Proof.KernelValue
import proofs.«109812_j51462298141282_1_alg».proof.Proof.RefDist
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the mean of the least distances of arguments that agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v10_eq _ _).trans ((Cert.ReferenceIdeal.RefDist.result_eq _ _).trans ?_)
  rw [(hagree c).1, (hagree c).2] <;> rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
